-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S2x16000000 : Shape := ⟨2, ![2, 16000000]⟩
abbrev S1x4 : Shape := ⟨2, ![1, 4]⟩
abbrev S4 : Shape := ⟨1, ![4]⟩
abbrev S4x4 : Shape := ⟨2, ![4, 4]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_

variable [Facts]

def fn_part1 {F : FTy → Type} [FloatOps F] (main_arg5 : FVec F S4 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S1000000x1 .f32) (main_arg1 : IVec S2x16000000 32) (main_arg2 : FVec F S1x4 .f32) (main_arg3 : FVec F S4 .f32) (main_arg4 : FVec F S4x4 .f32) (main_arg5 : FVec F S4 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1x4 .f32 := Host.absf main_arg2
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_v13 main_v16
-- ==== Kernel.lean ====
abbrev S1000000x1 : Shape := ⟨2, ![1000000, 1]⟩
abbrev S2x16000000 : Shape := ⟨2, ![2, 16000000]⟩
abbrev S1x4 : Shape := ⟨2, ![1, 4]⟩
abbrev S4 : Shape := ⟨1, ![4]⟩
abbrev S4x4 : Shape := ⟨2, ![4, 4]⟩
abbrev S1x16000000 : Shape := ⟨2, ![1, 16000000]⟩
abbrev S16000000 : Shape := ⟨1, ![16000000]⟩
abbrev S1000000x4 : Shape := ⟨2, ![1000000, 4]⟩
abbrev S1000000 : Shape := ⟨1, ![1000000]⟩
abbrev S17000000 : Shape := ⟨1, ![17000000]⟩
abbrev S_ : Shape := ⟨0, ![]⟩
abbrev S17000000x1 : Shape := ⟨2, ![17000000, 1]⟩
abbrev S17000000x4 : Shape := ⟨2, ![17000000, 4]⟩
abbrev S4x1000000 : Shape := ⟨2, ![4, 1000000]⟩
abbrev S16000000x1 : Shape := ⟨2, ![16000000, 1]⟩
abbrev S4x16000000 : Shape := ⟨2, ![4, 16000000]⟩
abbrev S4x160000 : Shape := ⟨2, ![4, 160000]⟩
abbrev S1x160000 : Shape := ⟨2, ![1, 160000]⟩
abbrev S160000 : Shape := ⟨1, ![160000]⟩

abbrev nBuf : Space → Nat
  | .hbm => 146
  | .vmem => 6
  | .smem => 0
  | _ => 0

abbrev hbmTy0_0 (i : Nat) : BufTy := match i % 128 with
  | 0 => ⟨S1000000x1, .f32⟩
  | 1 => ⟨S2x16000000, .i32⟩
  | 2 => ⟨S1x4, .f32⟩
  | 3 => ⟨S4, .f32⟩
  | 4 => ⟨S4x4, .f32⟩
  | 5 => ⟨S4, .f32⟩
  | 6 => ⟨S1x16000000, .i32⟩
  | 7 => ⟨S16000000, .i32⟩
  | 8 => ⟨S1x16000000, .i32⟩
  | 9 => ⟨S16000000, .i32⟩
  | 10 => ⟨S1000000x4, .f32⟩
  | 11 => ⟨S1000000, .i32⟩
  | 12 => ⟨S17000000, .i32⟩
  | 13 => ⟨S17000000, .i32⟩
  | 14 => ⟨S_, .f32⟩
  | 15 => ⟨S17000000, .f32⟩
  | 16 => ⟨S_, .f32⟩
  | 17 => ⟨S1000000, .f32⟩
  | 18 => ⟨S17000000x1, .i32⟩
  | 19 => ⟨S1000000, .f32⟩
  | 20 => ⟨S_, .f32⟩
  | 21 => ⟨S1000000, .f32⟩
  | 22 => ⟨S1000000, .i1⟩
  | 23 => ⟨S1000000, .f32⟩
  | 24 => ⟨S_, .f32⟩
  | 25 => ⟨S_, .f32⟩
  | 26 => ⟨S1000000, .f32⟩
  | 27 => ⟨S1000000, .f32⟩
  | 28 => ⟨S_, .i32⟩
  | 29 => ⟨S17000000, .i32⟩
  | 30 => ⟨S17000000, .i1⟩
  | 31 => ⟨S_, .i32⟩
  | 32 => ⟨S17000000, .i32⟩
  | 33 => ⟨S17000000, .i32⟩
  | 34 => ⟨S17000000, .i32⟩
  | 35 => ⟨S17000000x1, .i32⟩
  | 36 => ⟨S17000000, .f32⟩
  | 37 => ⟨S_, .i32⟩
  | 38 => ⟨S17000000, .i32⟩
  | 39 => ⟨S17000000, .i1⟩
  | 40 => ⟨S_, .i32⟩
  | 41 => ⟨S17000000, .i32⟩
  | 42 => ⟨S17000000, .i32⟩
  | 43 => ⟨S17000000, .i32⟩
  | 44 => ⟨S17000000x1, .i32⟩
  | 45 => ⟨S17000000, .f32⟩
  | 46 => ⟨S17000000, .f32⟩
  | 47 => ⟨S_, .i32⟩
  | 48 => ⟨S17000000, .i32⟩
  | 49 => ⟨S17000000, .i1⟩
  | 50 => ⟨S_, .i32⟩
  | 51 => ⟨S17000000, .i32⟩
  | 52 => ⟨S17000000, .i32⟩
  | 53 => ⟨S17000000, .i32⟩
  | 54 => ⟨S17000000x1, .i32⟩
  | 55 => ⟨S17000000x4, .f32⟩
  | 56 => ⟨S17000000x1, .f32⟩
  | 57 => ⟨S17000000x4, .f32⟩
  | 58 => ⟨S17000000x4, .f32⟩
  | 59 => ⟨S_, .f32⟩
  | 60 => ⟨S1000000x4, .f32⟩
  | 61 => ⟨S17000000x1, .i32⟩
  | 62 => ⟨S1000000x4, .f32⟩
  | 63 => ⟨S1x4, .f32⟩
  | 64 => ⟨S1000000x4, .f32⟩
  | 65 => ⟨S1000000x4, .f32⟩
  | 66 => ⟨S_, .f32⟩
  | 67 => ⟨S1000000x4, .f32⟩
  | 68 => ⟨S1000000x4, .f32⟩
  | 69 => ⟨S1000000x4, .f32⟩
  | 70 => ⟨S1000000, .i32⟩
  | 71 => ⟨S17000000, .i32⟩
  | 72 => ⟨S17000000, .i32⟩
  | 73 => ⟨S_, .f32⟩
  | 74 => ⟨S17000000, .f32⟩
  | 75 => ⟨S_, .f32⟩
  | 76 => ⟨S1000000, .f32⟩
  | 77 => ⟨S17000000x1, .i32⟩
  | 78 => ⟨S1000000, .f32⟩
  | 79 => ⟨S_, .f32⟩
  | 80 => ⟨S1000000, .f32⟩
  | 81 => ⟨S1000000, .i1⟩
  | 82 => ⟨S1000000, .f32⟩
  | 83 => ⟨S_, .f32⟩
  | 84 => ⟨S_, .f32⟩
  | 85 => ⟨S1000000, .f32⟩
  | 86 => ⟨S1000000, .f32⟩
  | 87 => ⟨S_, .i32⟩
  | 88 => ⟨S17000000, .i32⟩
  | 89 => ⟨S17000000, .i1⟩
  | 90 => ⟨S_, .i32⟩
  | 91 => ⟨S17000000, .i32⟩
  | 92 => ⟨S17000000, .i32⟩
  | 93 => ⟨S17000000, .i32⟩
  | 94 => ⟨S17000000x1, .i32⟩
  | 95 => ⟨S17000000, .f32⟩
  | 96 => ⟨S_, .i32⟩
  | 97 => ⟨S17000000, .i32⟩
  | 98 => ⟨S17000000, .i1⟩
  | 99 => ⟨S_, .i32⟩
  | 100 => ⟨S17000000, .i32⟩
  | 101 => ⟨S17000000, .i32⟩
  | 102 => ⟨S17000000, .i32⟩
  | 103 => ⟨S17000000x1, .i32⟩
  | 104 => ⟨S17000000, .f32⟩
  | 105 => ⟨S17000000, .f32⟩
  | 106 => ⟨S_, .i32⟩
  | 107 => ⟨S17000000, .i32⟩
  | 108 => ⟨S17000000, .i1⟩
  | 109 => ⟨S_, .i32⟩
  | 110 => ⟨S17000000, .i32⟩
  | 111 => ⟨S17000000, .i32⟩
  | 112 => ⟨S17000000, .i32⟩
  | 113 => ⟨S17000000x1, .i32⟩
  | 114 => ⟨S17000000x4, .f32⟩
  | 115 => ⟨S17000000x1, .f32⟩
  | 116 => ⟨S17000000x4, .f32⟩
  | 117 => ⟨S17000000x4, .f32⟩
  | 118 => ⟨S_, .f32⟩
  | 119 => ⟨S1000000x4, .f32⟩
  | 120 => ⟨S17000000x1, .i32⟩
  | 121 => ⟨S1000000x4, .f32⟩
  | 122 => ⟨S1x4, .f32⟩
  | 123 => ⟨S1000000x4, .f32⟩
  | 124 => ⟨S1000000x4, .f32⟩
  | 125 => ⟨S4x1000000, .f32⟩
  | 126 => ⟨S_, .i32⟩
  | 127 => ⟨S16000000, .i32⟩
  | _ => ⟨S1000000x1, .f32⟩

abbrev hbmTy0_1 (i : Nat) : BufTy := match i % 128 with
  | 0 => ⟨S16000000, .i1⟩
  | 1 => ⟨S_, .i32⟩
  | 2 => ⟨S16000000, .i32⟩
  | 3 => ⟨S16000000, .i32⟩
  | 4 => ⟨S16000000, .i32⟩
  | 5 => ⟨S16000000x1, .i32⟩
  | 6 => ⟨S4x16000000, .f32⟩
  | 7 => ⟨S_, .i32⟩
  | 8 => ⟨S16000000, .i32⟩
  | 9 => ⟨S16000000, .i1⟩
  | 10 => ⟨S_, .i32⟩
  | 11 => ⟨S16000000, .i32⟩
  | 12 => ⟨S16000000, .i32⟩
  | 13 => ⟨S16000000, .i32⟩
  | 14 => ⟨S16000000x1, .i32⟩
  | 15 => ⟨S4x16000000, .f32⟩
  | 16 => ⟨S1x16000000, .f32⟩
  | 17 => ⟨S16000000, .f32⟩
  | _ => ⟨S1000000x1, .f32⟩

abbrev hbmTy (i : Nat) : BufTy := match i / 128 with
  | 0 => hbmTy0_0 i
  | 1 => hbmTy0_1 i
  | _ => ⟨S1000000x1, .f32⟩

abbrev bufTy : (tb : Table) → Fin (tcTables nBuf tb) → BufTy
  | .hbm, ⟨i, _⟩ => hbmTy i
  | .local _ .vmem, ⟨0, _⟩ => ⟨S4x160000, .f32⟩
  | .local _ .vmem, ⟨1, _⟩ => ⟨S4x160000, .f32⟩
  | .local _ .vmem, ⟨2, _⟩ => ⟨S4x160000, .f32⟩
  | .local _ .vmem, ⟨3, _⟩ => ⟨S4x160000, .f32⟩
  | .local _ .vmem, ⟨4, _⟩ => ⟨S1x160000, .f32⟩
  | .local _ .vmem, ⟨5, _⟩ => ⟨S1x160000, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_20 : Ref sig .tc := ⟨.hbm, 126, rfl⟩
abbrev main_v92 : Ref sig .tc := ⟨.hbm, 127, rfl⟩
abbrev main_v93 : Ref sig .tc := ⟨.hbm, 128, rfl⟩
abbrev main_c_21 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_22 : Ref sig .tc := ⟨.hbm, 135, rfl⟩
abbrev main_v99 : Ref sig .tc := ⟨.hbm, 136, rfl⟩
abbrev main_v100 : Ref sig .tc := ⟨.hbm, 137, rfl⟩
abbrev main_c_23 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x160000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S1000000_S17000000_d0 : Shape.Concatenates [S16000000, S1000000] S17000000 0
  bcast_S_S17000000 : S_.BroadcastsInDim S17000000 (![] : Fin 0 → Fin S17000000.rank)
  bcast_S_S1000000 : S_.BroadcastsInDim S1000000 (![] : Fin 0 → Fin S1000000.rank)
  bcast_S17000000_S17000000x1_0 : S17000000.BroadcastsInDim S17000000x1 (![0] : Fin 1 → Fin S17000000x1.rank)
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  transposes_S1000000x4_S4x1000000_1_0 : S1000000x4.Transposes [1, 0] S4x1000000
  bcast_S_S16000000 : S_.BroadcastsInDim S16000000 (![] : Fin 0 → Fin S16000000.rank)
  bcast_S16000000_S16000000x1_0 : S16000000.BroadcastsInDim S16000000x1 (![0] : Fin 1 → Fin S16000000x1.rank)
  inb_S4x160000_S4x160000_0_0 : ∀ a, (![0, 0] : Fin 2 → Nat) a + S4x160000.size a ≤ S4x160000.size a
  h_S4x160000 : 0 < S4x160000.numel
  shapeCasts_S4x160000_S4x160000 : S4x160000.ShapeCasts S4x160000
  reduces_S4x160000_S160000 : S4x160000.Reduces [0] S160000
  shapeCasts_S160000_S1x160000 : S160000.ShapeCasts S1x160000
  inb_S1x160000_S1x160000_0_0 : ∀ a, (![0, 0] : Fin 2 → Nat) a + S1x160000.size a ≤ S1x160000.size a
  h_S1x160000 : 0 < S1x160000.numel
  dot_S1000000x1_S1x4_S1000000x4_1_0_0_1_n_n_wf : DotDims.WF S1000000x1 S1x4 S1000000x4 [1] [0] [0] [1] [] []
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  dot_S1000000x4_S4x4_S1000000x4_1_0_0_1_n_n_wf : DotDims.WF S1000000x4 S4x4 S1000000x4 [1] [0] [0] [1] [] []
  gather_S4x1000000_S16000000x1_S4x16000000_0_1_n_n_1_1_41_wf : GatherDims.WF S4x1000000 S16000000x1 S4x16000000 [0] [1] [] [1] [] 1 ![4, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x160000.size a ≤ S4x16000000.size a
  hwx0_0 : ∀ i : grid0.Coords, EltTy.bits .f32 = 32 ∨ (Rect.block (s := S4x16000000) S4x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x160000.size a ≤ S4x16000000.size a
  hwx0_1 : ∀ i : grid0.Coords, EltTy.bits .f32 = 32 ∨ (Rect.block (s := S4x16000000) S4x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x160000.size a ≤ S1x16000000.size a
  hwx0_2 : ∀ i : grid0.Coords, EltTy.bits .f32 = 32 ∨ (Rect.block (s := S1x16000000) S1x160000.size (cc0_transform_2 i) (hinb0_2 i)).WholeWords (EltTy.packing .f32)

variable [Facts₀]

def dot_S1000000x1_S1x4_S1000000x4_1_0_0_1_n_n : DotDims S1000000x1 S1x4 S1000000x4 where
  lhsContracting := [1]
  rhsContracting := [0]
  lhsNonContracting := [0]
  rhsNonContracting := [1]
  lhsBatch := []
  rhsBatch := []
  wf := dot_S1000000x1_S1x4_S1000000x4_1_0_0_1_n_n_wf
def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def dot_S1000000x4_S4x4_S1000000x4_1_0_0_1_n_n : DotDims S1000000x4 S4x4 S1000000x4 where
  lhsContracting := [1]
  rhsContracting := [0]
  lhsNonContracting := [0]
  rhsNonContracting := [1]
  lhsBatch := []
  rhsBatch := []
  wf := dot_S1000000x4_S4x4_S1000000x4_1_0_0_1_n_n_wf
def gather_S4x1000000_S16000000x1_S4x16000000_0_1_n_n_1_1_41 : GatherDims S4x1000000 S16000000x1 S4x16000000 where
  offsetDims := [0]
  collapsedSliceDims := [1]
  operandBatchingDims := []
  startIndicesBatchingDims := []
  startIndexMap := [1]
  indexVectorDim := 1
  sliceSizes := ![4, 1]
  wf := gather_S4x1000000_S16000000x1_S4x16000000_0_1_n_n_1_1_41_wf

abbrev win0_0 : Pipeline.Window sig grid0 :=
  Pipeline.Window.ofSpec (Memref.whole main_v98) S4x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v105) S4x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v106) S1x160000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x1 : Shape := ⟨2, ![1000000, 1]⟩
abbrev S2x16000000 : Shape := ⟨2, ![2, 16000000]⟩
abbrev S1x4 : Shape := ⟨2, ![1, 4]⟩
abbrev S4 : Shape := ⟨1, ![4]⟩
abbrev S4x4 : Shape := ⟨2, ![4, 4]⟩
abbrev S1x16000000 : Shape := ⟨2, ![1, 16000000]⟩
abbrev S16000000 : Shape := ⟨1, ![16000000]⟩
abbrev S1000000x4 : Shape := ⟨2, ![1000000, 4]⟩
abbrev S1000000 : Shape := ⟨1, ![1000000]⟩
abbrev S17000000 : Shape := ⟨1, ![17000000]⟩
abbrev S_ : Shape := ⟨0, ![]⟩
abbrev S17000000x1 : Shape := ⟨2, ![17000000, 1]⟩
abbrev S17000000x4 : Shape := ⟨2, ![17000000, 4]⟩
abbrev S16000000x1 : Shape := ⟨2, ![16000000, 1]⟩
abbrev S16000000x4 : Shape := ⟨2, ![16000000, 4]⟩

abbrev nBuf : Space → Nat
  | .hbm => 146
  | .vmem => 0
  | .smem => 0
  | _ => 0

abbrev hbmTy0_0 (i : Nat) : BufTy := match i % 128 with
  | 0 => ⟨S1000000x1, .f32⟩
  | 1 => ⟨S2x16000000, .i32⟩
  | 2 => ⟨S1x4, .f32⟩
  | 3 => ⟨S4, .f32⟩
  | 4 => ⟨S4x4, .f32⟩
  | 5 => ⟨S4, .f32⟩
  | 6 => ⟨S1x16000000, .i32⟩
  | 7 => ⟨S16000000, .i32⟩
  | 8 => ⟨S1x16000000, .i32⟩
  | 9 => ⟨S16000000, .i32⟩
  | 10 => ⟨S1000000x4, .f32⟩
  | 11 => ⟨S1000000, .i32⟩
  | 12 => ⟨S17000000, .i32⟩
  | 13 => ⟨S17000000, .i32⟩
  | 14 => ⟨S_, .f32⟩
  | 15 => ⟨S17000000, .f32⟩
  | 16 => ⟨S_, .f32⟩
  | 17 => ⟨S1000000, .f32⟩
  | 18 => ⟨S17000000x1, .i32⟩
  | 19 => ⟨S1000000, .f32⟩
  | 20 => ⟨S_, .f32⟩
  | 21 => ⟨S1000000, .f32⟩
  | 22 => ⟨S1000000, .i1⟩
  | 23 => ⟨S1000000, .f32⟩
  | 24 => ⟨S_, .f32⟩
  | 25 => ⟨S_, .f32⟩
  | 26 => ⟨S1000000, .f32⟩
  | 27 => ⟨S1000000, .f32⟩
  | 28 => ⟨S_, .i32⟩
  | 29 => ⟨S17000000, .i32⟩
  | 30 => ⟨S17000000, .i1⟩
  | 31 => ⟨S_, .i32⟩
  | 32 => ⟨S17000000, .i32⟩
  | 33 => ⟨S17000000, .i32⟩
  | 34 => ⟨S17000000, .i32⟩
  | 35 => ⟨S17000000x1, .i32⟩
  | 36 => ⟨S17000000, .f32⟩
  | 37 => ⟨S_, .i32⟩
  | 38 => ⟨S17000000, .i32⟩
  | 39 => ⟨S17000000, .i1⟩
  | 40 => ⟨S_, .i32⟩
  | 41 => ⟨S17000000, .i32⟩
  | 42 => ⟨S17000000, .i32⟩
  | 43 => ⟨S17000000, .i32⟩
  | 44 => ⟨S17000000x1, .i32⟩
  | 45 => ⟨S17000000, .f32⟩
  | 46 => ⟨S17000000, .f32⟩
  | 47 => ⟨S_, .i32⟩
  | 48 => ⟨S17000000, .i32⟩
  | 49 => ⟨S17000000, .i1⟩
  | 50 => ⟨S_, .i32⟩
  | 51 => ⟨S17000000, .i32⟩
  | 52 => ⟨S17000000, .i32⟩
  | 53 => ⟨S17000000, .i32⟩
  | 54 => ⟨S17000000x1, .i32⟩
  | 55 => ⟨S17000000x4, .f32⟩
  | 56 => ⟨S17000000x1, .f32⟩
  | 57 => ⟨S17000000x4, .f32⟩
  | 58 => ⟨S17000000x4, .f32⟩
  | 59 => ⟨S_, .f32⟩
  | 60 => ⟨S1000000x4, .f32⟩
  | 61 => ⟨S17000000x1, .i32⟩
  | 62 => ⟨S1000000x4, .f32⟩
  | 63 => ⟨S1x4, .f32⟩
  | 64 => ⟨S1000000x4, .f32⟩
  | 65 => ⟨S1000000x4, .f32⟩
  | 66 => ⟨S_, .f32⟩
  | 67 => ⟨S1000000x4, .f32⟩
  | 68 => ⟨S1000000x4, .f32⟩
  | 69 => ⟨S1000000x4, .f32⟩
  | 70 => ⟨S1000000, .i32⟩
  | 71 => ⟨S17000000, .i32⟩
  | 72 => ⟨S17000000, .i32⟩
  | 73 => ⟨S_, .f32⟩
  | 74 => ⟨S17000000, .f32⟩
  | 75 => ⟨S_, .f32⟩
  | 76 => ⟨S1000000, .f32⟩
  | 77 => ⟨S17000000x1, .i32⟩
  | 78 => ⟨S1000000, .f32⟩
  | 79 => ⟨S_, .f32⟩
  | 80 => ⟨S1000000, .f32⟩
  | 81 => ⟨S1000000, .i1⟩
  | 82 => ⟨S1000000, .f32⟩
  | 83 => ⟨S_, .f32⟩
  | 84 => ⟨S_, .f32⟩
  | 85 => ⟨S1000000, .f32⟩
  | 86 => ⟨S1000000, .f32⟩
  | 87 => ⟨S_, .i32⟩
  | 88 => ⟨S17000000, .i32⟩
  | 89 => ⟨S17000000, .i1⟩
  | 90 => ⟨S_, .i32⟩
  | 91 => ⟨S17000000, .i32⟩
  | 92 => ⟨S17000000, .i32⟩
  | 93 => ⟨S17000000, .i32⟩
  | 94 => ⟨S17000000x1, .i32⟩
  | 95 => ⟨S17000000, .f32⟩
  | 96 => ⟨S_, .i32⟩
  | 97 => ⟨S17000000, .i32⟩
  | 98 => ⟨S17000000, .i1⟩
  | 99 => ⟨S_, .i32⟩
  | 100 => ⟨S17000000, .i32⟩
  | 101 => ⟨S17000000, .i32⟩
  | 102 => ⟨S17000000, .i32⟩
  | 103 => ⟨S17000000x1, .i32⟩
  | 104 => ⟨S17000000, .f32⟩
  | 105 => ⟨S17000000, .f32⟩
  | 106 => ⟨S_, .i32⟩
  | 107 => ⟨S17000000, .i32⟩
  | 108 => ⟨S17000000, .i1⟩
  | 109 => ⟨S_, .i32⟩
  | 110 => ⟨S17000000, .i32⟩
  | 111 => ⟨S17000000, .i32⟩
  | 112 => ⟨S17000000, .i32⟩
  | 113 => ⟨S17000000x1, .i32⟩
  | 114 => ⟨S17000000x4, .f32⟩
  | 115 => ⟨S17000000x1, .f32⟩
  | 116 => ⟨S17000000x4, .f32⟩
  | 117 => ⟨S17000000x4, .f32⟩
  | 118 => ⟨S_, .f32⟩
  | 119 => ⟨S1000000x4, .f32⟩
  | 120 => ⟨S17000000x1, .i32⟩
  | 121 => ⟨S1000000x4, .f32⟩
  | 122 => ⟨S1x4, .f32⟩
  | 123 => ⟨S1000000x4, .f32⟩
  | 124 => ⟨S1000000x4, .f32⟩
  | 125 => ⟨S_, .i32⟩
  | 126 => ⟨S16000000, .i32⟩
  | 127 => ⟨S16000000, .i1⟩
  | _ => ⟨S1000000x1, .f32⟩

abbrev hbmTy0_1 (i : Nat) : BufTy := match i % 128 with
  | 0 => ⟨S_, .i32⟩
  | 1 => ⟨S16000000, .i32⟩
  | 2 => ⟨S16000000, .i32⟩
  | 3 => ⟨S16000000, .i32⟩
  | 4 => ⟨S16000000x1, .i32⟩
  | 5 => ⟨S16000000x4, .f32⟩
  | 6 => ⟨S_, .i32⟩
  | 7 => ⟨S16000000, .i32⟩
  | 8 => ⟨S16000000, .i1⟩
  | 9 => ⟨S_, .i32⟩
  | 10 => ⟨S16000000, .i32⟩
  | 11 => ⟨S16000000, .i32⟩
  | 12 => ⟨S16000000, .i32⟩
  | 13 => ⟨S16000000x1, .i32⟩
  | 14 => ⟨S16000000x4, .f32⟩
  | 15 => ⟨S16000000x4, .f32⟩
  | 16 => ⟨S_, .f32⟩
  | 17 => ⟨S16000000, .f32⟩
  | _ => ⟨S1000000x1, .f32⟩

abbrev hbmTy (i : Nat) : BufTy := match i / 128 with
  | 0 => hbmTy0_0 i
  | 1 => hbmTy0_1 i
  | _ => ⟨S1000000x1, .f32⟩

abbrev bufTy : (tb : Table) → Fin (tcTables nBuf tb) → BufTy
  | .hbm, ⟨i, _⟩ => hbmTy i
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_20 : Ref sig .tc := ⟨.hbm, 125, rfl⟩
abbrev main_v91 : Ref sig .tc := ⟨.hbm, 126, rfl⟩
abbrev main_v92 : Ref sig .tc := ⟨.hbm, 127, rfl⟩
abbrev main_c_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_22 : Ref sig .tc := ⟨.hbm, 134, rfl⟩
abbrev main_v98 : Ref sig .tc := ⟨.hbm, 135, rfl⟩
abbrev main_v99 : Ref sig .tc := ⟨.hbm, 136, rfl⟩
abbrev main_c_23 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_24 : Ref sig .tc := ⟨.hbm, 144, rfl⟩
abbrev main_v106 : Ref sig .tc := ⟨.hbm, 145, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S1000000_S17000000_d0 : Shape.Concatenates [S16000000, S1000000] S17000000 0
  bcast_S_S17000000 : S_.BroadcastsInDim S17000000 (![] : Fin 0 → Fin S17000000.rank)
  bcast_S_S1000000 : S_.BroadcastsInDim S1000000 (![] : Fin 0 → Fin S1000000.rank)
  bcast_S17000000_S17000000x1_0 : S17000000.BroadcastsInDim S17000000x1 (![0] : Fin 1 → Fin S17000000x1.rank)
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  reducesTo_S16000000x4_S16000000_d1 : S16000000x4.ReducesTo [1] S16000000
  h_S_ : 0 < S_.numel
  dot_S1000000x1_S1x4_S1000000x4_1_0_0_1_n_n_wf : DotDims.WF S1000000x1 S1x4 S1000000x4 [1] [0] [0] [1] [] []
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  dot_S1000000x4_S4x4_S1000000x4_1_0_0_1_n_n_wf : DotDims.WF S1000000x4 S4x4 S1000000x4 [1] [0] [0] [1] [] []
  gather_S1000000x4_S16000000x1_S16000000x4_1_0_n_n_0_1_14_wf : GatherDims.WF S1000000x4 S16000000x1 S16000000x4 [1] [0] [] [0] [] 1 ![1, 4]

variable [Facts₀]

def dot_S1000000x1_S1x4_S1000000x4_1_0_0_1_n_n : DotDims S1000000x1 S1x4 S1000000x4 where
  lhsContracting := [1]
  rhsContracting := [0]
  lhsNonContracting := [0]
  rhsNonContracting := [1]
  lhsBatch := []
  rhsBatch := []
  wf := dot_S1000000x1_S1x4_S1000000x4_1_0_0_1_n_n_wf
def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def dot_S1000000x4_S4x4_S1000000x4_1_0_0_1_n_n : DotDims S1000000x4 S4x4 S1000000x4 where
  lhsContracting := [1]
  rhsContracting := [0]
  lhsNonContracting := [0]
  rhsNonContracting := [1]
  lhsBatch := []
  rhsBatch := []
  wf := dot_S1000000x4_S4x4_S1000000x4_1_0_0_1_n_n_wf
def gather_S1000000x4_S16000000x1_S16000000x4_1_0_n_n_0_1_14 : GatherDims S1000000x4 S16000000x1 S16000000x4 where
  offsetDims := [1]
  collapsedSliceDims := [0]
  operandBatchingDims := []
  startIndicesBatchingDims := []
  startIndexMap := [0]
  indexVectorDim := 1
  sliceSizes := ![1, 4]
  wf := gather_S1000000x4_S16000000x1_S16000000x4_1_0_n_n_0_1_14_wf

class Facts : Prop extends Facts₀ where

variable [Facts]
-- ==== Proof.KernelPay.lean ====
/-
  The body of the edge-scoring region, read at an index. The body multiplies its two `[4, 160000]` input blocks entry by
  entry and sums the four rows of each column; over the extended reals the lane sum from a neutral accumulator is the
  plain sum, so column `q` of the `[1, 160000]` block it stores holds `∑ k < 4, x0[k, q] · x1[k, q]`.
  `dot4` / `dots` name the same sum over whole `[4, 16000000]` arrays: what the region's output array will hold.
-/
import proofs.«152701_j38147899523171_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.EdgeDot

open Cert.KernelIdeal Cert.KernelIdeal.Gen

theorem hz : (![0, 0] : Fin 2 → Nat) = fun _ => 0 := funext fun a => by fin_cases a <;> rfl

/-! ## The per-edge sum -/

/-- The sum over the four features of the products of two `[4, E]` arrays at edge `e`. -/
def dot4 (A B : Vec Ideal S4x16000000 .f32) (e : Fin 16000000) : EReal :=
  ∑ k : Fin 4, A (ix2 k e) * B (ix2 k e)

/-- The region's output array as one function of its two input arrays: row 0, column `e` holds the sum at `e`. -/
def dots (A B : Vec Ideal S4x16000000 .f32) : Vec Ideal S1x16000000 .f32 :=
  fun j => dot4 A B ⟨(j 1).val, idx2_lt1 j⟩

/-! ## The body's arithmetic at an index -/

/-- What the body stores at column `q` of its `[1, 160000]` block: the column's four products, summed. -/
theorem pay_apply (x0 x1 : Vec Ideal S4x160000 .f32) (q : Fin 160000) :
    k0_pay1 (F := Ideal) x0 x1 (ix2 (0 : Fin 1) q) = ∑ k : Fin 4, x0 (ix2 k q) * x1 (ix2 k q) := by
  unfold k0_pay1
  refine (shapeCast_apply _ shapeCasts_S160000_S1x160000 (ix2 (0 : Fin 1) q) (ix1 q) (by
    rw [Shape.rowMajor_val_one, Shape.rowMajor_val_two]; show q.val = 0 * 160000 + q.val; omega)).trans ?_
  refine (Ideal.multiReduction_add_single _ 0x00000000#32 reduces_S4x160000_S160000 (.inl rfl) rfl (ix1 q)).trans ?_
  refine Finset.sum_congr rfl fun k _ => ?_
  rw [shapeCast_self, shapeCast_self]
  show x0 _ * x1 _ = _
  have hl : (reduces_S4x160000_S160000.lift (ix1 q) k : S4x160000.Idx) = ix2 k q :=
    funext fun a => Fin.ext (by match a with | ⟨0, _⟩ => rfl | ⟨1, _⟩ => rfl)
  rw [hl]
  rfl

end Cert.KernelIdeal.EdgeDot

end
-- ==== Proof.KernelBlocks.lean ====
/-
  The region's windows as columns of its arrays. The grid has 100 points; every window's block index at point `t` is
  `(0, t)`, so entry `(k, q)` of an input's `[4, 160000]` block at `t` is entry `(k, 160000·t + q)` of the input array,
  whatever the array holds.
-/
import proofs.«152701_j38147899523171_1_alg».proof.Proof.Gen.KernelIdeal.Frame
import proofs.«152701_j38147899523171_1_alg».proof.Proof.KernelPay

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.EdgeDot

open Cert.KernelIdeal Cert.KernelIdeal.Gen

variable (m : (ℓ : Loc nD τ sig) → Buf (Elt Ideal) ℓ)

/-- Every window's block index at point `t` is `(0, t)`: the blocks move along the edge axis with the grid. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem col_lt (t : Fin cfg0.N) (q : Fin 160000) : t.val * 160000 + q.val < 16000000 := by
  have ht : t.val < cfg0.N := t.isLt
  have hN : cfg0.N = 100 := N_0
  have hq : q.val < 160000 := q.isLt
  omega

/-- Entry `(k, q)` of window 0's block at point `t`, read off any array `X`, is `X` at `(k, 160000·t + q)`. -/
theorem blk0_read (X : Vec Ideal S4x16000000 .f32) (t : Fin cfg0.N) (k : Fin 4) (q : Fin 160000) :
    ((cfg0.win 0).blk t).view.read (Elt Ideal) X (ix2 k q) = X (ix2 k ⟨t.val * 160000 + q.val, col_lt t q⟩) := by
  obtain ⟨e0, e1, -, -, -, -⟩ := idx_facts t
  rw [View.read_apply]
  refine congrArg X (funext fun a => Fin.ext ?_)
  match a with
  | ⟨0, _⟩ => show win0_0.index t (0 : Fin 2) * 4 + 1 * k.val = k.val; rw [e0]; omega
  | ⟨1, _⟩ => show win0_0.index t (1 : Fin 2) * 160000 + 1 * q.val = t.val * 160000 + q.val; rw [e1]; omega

/-- The same for window 1. -/
theorem blk1_read (X : Vec Ideal S4x16000000 .f32) (t : Fin cfg0.N) (k : Fin 4) (q : Fin 160000) :
    ((cfg0.win 1).blk t).view.read (Elt Ideal) X (ix2 k q) = X (ix2 k ⟨t.val * 160000 + q.val, col_lt t q⟩) := by
  obtain ⟨-, -, e0, e1, -, -⟩ := idx_facts t
  rw [View.read_apply]
  refine congrArg X (funext fun a => Fin.ext ?_)
  match a with
  | ⟨0, _⟩ => show win0_1.index t (0 : Fin 2) * 4 + 1 * k.val = k.val; rw [e0]; omega
  | ⟨1, _⟩ => show win0_1.index t (1 : Fin 2) * 160000 + 1 * q.val = t.val * 160000 + q.val; rw [e1]; omega

/-- The two input arrays as the region finds them, and the blocks of them the body is run on, at their literal types. -/
abbrev arrA (c : Dev nD) : Vec Ideal S4x16000000 .f32 := V m c (Pipeline.arrRef spec0 0)
abbrev arrB (c : Dev nD) : Vec Ideal S4x16000000 .f32 := V m c (Pipeline.arrRef spec0 1)
abbrev blkA (c : Dev nD) (t : Fin cfg0.N) : Vec Ideal S4x160000 .f32 := iblk m c 0 t
abbrev blkB (c : Dev nD) (t : Fin cfg0.N) : Vec Ideal S4x160000 .f32 := iblk m c 1 t

/-- Entry `(k, q)` of the first input's block at point `t` is entry `(k, 160000·t + q)` of the array. -/
theorem blkA_apply (c : Dev nD) (t : Fin cfg0.N) (k : Fin 4) (q : Fin 160000) :
    blkA m c t (ix2 k q) = arrA m c (ix2 k ⟨t.val * 160000 + q.val, col_lt t q⟩) := by
  show iblk m c 0 t (ix2 k q) = _
  unfold iblk
  exact blk0_read (arrA m c) t k q

/-- The same for the second input. -/
theorem blkB_apply (c : Dev nD) (t : Fin cfg0.N) (k : Fin 4) (q : Fin 160000) :
    blkB m c t (ix2 k q) = arrB m c (ix2 k ⟨t.val * 160000 + q.val, col_lt t q⟩) := by
  show iblk m c 1 t (ix2 k q) = _
  unfold iblk
  exact blk1_read (arrB m c) t k q

end Cert.KernelIdeal.EdgeDot

end
-- ==== Proof.KernelFinal.lean ====
/-
  What each grid point writes back, and the region's output array after the run. Point `t` writes columns
  `160000·t … 160000·t + 159999` of the `[1, 16000000]` output, each the sum of the four products of that column of the
  two inputs; the 100 blocks tile the output, so after the run it holds `dots` of the two input arrays.
-/
import proofs.«152701_j38147899523171_1_alg».proof.Proof.KernelBlocks

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.EdgeDot

open Cert.KernelIdeal Cert.KernelIdeal.Gen

variable (m : (ℓ : Loc nD τ sig) → Buf (Elt Ideal) ℓ)

/-- For ANY two arrays `X, Y` and blocks `x0, x1` that are their columns at point `t`: the body's store, read through
    the output window's block at `t`, is block `t` of `dots X Y`. -/
theorem flushed_core (X Y : Vec Ideal S4x16000000 .f32) (x0 x1 : Vec Ideal S4x160000 .f32) (t : Fin cfg0.N)
    (h0 : ∀ (k : Fin 4) (q : Fin 160000), x0 (ix2 k q) = X (ix2 k ⟨t.val * 160000 + q.val, col_lt t q⟩))
    (h1 : ∀ (k : Fin 4) (q : Fin 160000), x1 (ix2 k q) = Y (ix2 k ⟨t.val * 160000 + q.val, col_lt t q⟩)) :
    (cfg0.win 2).cut (grid0.coords t) (k0_pay1 (F := Ideal) x0 x1)
      = ((cfg0.win 2).blk t).view.read (Elt Ideal) (dots X Y) := by
  obtain ⟨-, -, -, -, e0, e1⟩ := idx_facts t
  refine funext fun (j : S1x160000.Idx) => ?_
  obtain ⟨p, q, rfl⟩ : ∃ (p : Fin 1) (q : Fin 160000), j = ix2 p q := ⟨j 0, j 1, eq_ix2 j⟩
  obtain rfl : p = 0 := Subsingleton.elim _ _
  rw [View.read_apply]
  refine Eq.trans (b := k0_pay1 (F := Ideal) x0 x1 (ix2 (0 : Fin 1) q)) rfl ?_
  refine (pay_apply x0 x1 q).trans ?_
  unfold dots dot4
  refine Finset.sum_congr rfl fun k _ => ?_
  rw [h0, h1]
  have hcol : (⟨t.val * 160000 + q.val, col_lt t q⟩ : Fin 16000000)
      = ⟨((((cfg0.win 2).blk t).view.emb (ix2 (0 : Fin 1) q)) 1).val, idx2_lt1 _⟩ := by
    apply Fin.ext
    show t.val * 160000 + q.val = win0_2.index t (1 : Fin 2) * 160000 + 1 * q.val
    rw [e1]; omega
  rw [hcol]

/-- Point `t` writes back block `t` of `dots` of the two input arrays. -/
theorem flushed_eq (c : Dev nD) (t : Fin cfg0.N) :
    (dats m 0 c).flushed 2 t = ((cfg0.win 2).blk t).view.read (Elt Ideal) (dots (arrA m c) (arrB m c)) := by
  show (cfg0.win 2).cut (grid0.coords t) ((dats m 0 c).after 2 t) = _
  rw [after0_2]
  unfold out0_2
  rw [View.canon_unit_zero hz]
  simp only [View.ld_unit_zero (S := S4x160000) hz]
  exact flushed_core (arrA m c) (arrB m c) (iblk m c 0 t) (iblk m c 1 t) t (blkA_apply m c t) (blkB_apply m c t)

/-- Index `i` of the output array is in point `t`'s block iff its coordinates are in the block's ranges. -/
theorem mem_blk (t : Fin cfg0.N) (i : S1x16000000.Idx) :
    i ∈ ((cfg0.win 2).blk t).view.set ↔ ∀ a : Fin 2, win0_2.index t a * S1x160000.size a ≤ (i a).val
      ∧ (i a).val < win0_2.index t a * S1x160000.size a + S1x160000.size a := by
  show i ∈ ((View.whole main_v106).slice (win0_2.rect t)).set ↔ _
  rw [View.set_slice_whole, Rect.mem_set_unit]
  exact Iff.rfl

/-- The blocks tile the output: column `e` lies in the block of point `e / 160000`. -/
theorem cover (i : S1x16000000.Idx) :
    ∃ t : Fin cfg0.N, (cfg0.win 2).flush t = true ∧ i ∈ ((cfg0.win 2).blk t).view.set := by
  have hi0 : (i 0).val < 1 := idx2_lt0 i
  have hi1 : (i 1).val < 16000000 := idx2_lt1 i
  have hN : cfg0.N = 100 := N_0
  let t : Fin cfg0.N := ⟨(i 1).val / 160000, by rw [hN]; omega⟩
  obtain ⟨-, -, -, -, e0, e1⟩ := idx_facts t
  have e1' : win0_2.index t (1 : Fin 2) = (i 1).val / 160000 := e1
  refine ⟨t, flush0_2 t, ?_⟩
  rw [mem_blk]
  intro a
  match a with
  | ⟨0, _⟩ => show win0_2.index t (0 : Fin 2) * 1 ≤ (i 0).val ∧ (i 0).val < win0_2.index t (0 : Fin 2) * 1 + 1; rw [e0]; omega
  | ⟨1, _⟩ => show win0_2.index t (1 : Fin 2) * 160000 ≤ (i 1).val ∧ (i 1).val < win0_2.index t (1 : Fin 2) * 160000 + 160000; rw [e1']; omega

/-- After the run the region's output array holds `dots` of the two input arrays. -/
theorem final (c : Dev nD) : (dats m 0 c).arrAt 2 cfg0.N = dots (arrA m c) (arrB m c) :=
  (dats m 0 c).arrAt_eq_of_cover 2 (dots (arrA m c) (arrB m c)) (fun t _ => flushed_eq m c t) cover

end Cert.KernelIdeal.EdgeDot

end
-- ==== Proof.KernelRun.lean ====
/-
  The host line after the region, and the idealized kernel program's run. The line drops the output's unit axis, so the
  result buffer holds, at edge `e`, the sum over the four features of the products of the region's two input arrays.
-/
import proofs.«152701_j38147899523171_1_alg».proof.Proof.KernelFinal

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.EdgeDot

open Cert.KernelIdeal Cert.KernelIdeal.Gen

variable (m : (ℓ : Loc nD τ sig) → Buf (Elt Ideal) ℓ) (ρ : Dev nD → PrngReg)

/-- The program's result: at edge `e` the sum over the features of the two input arrays' products. -/
def result (c : Dev nD) : Vec Ideal S16000000 .f32 :=
  fun i => dot4 (arrA m c) (arrB m c) ⟨(i 0).val, (i 0).isLt⟩

/-- The line after the region, from ANY buffer contents `W`: the result buffer at edge `e` holds entry `(0, e)` of what
    `W` has at the region's output buffer (a reshape `[1, E] → [E]` keeps the row-major position). -/
theorem tail_core (W : Valuation τ sig (Elt Ideal)) (e : Fin 16000000) :
    (StableHlo.after hostOps1 W (Proc.devRef .tc main_v107) : Vec Ideal S16000000 .f32) (ix1 e)
      = (W (Proc.devRef .tc main_v106) : Vec Ideal S1x16000000 .f32) (ix2 (0 : Fin 1) e) := by
  have h : (StableHlo.after hostOps1 W (Proc.devRef .tc main_v107) : Vec Ideal S16000000 .f32)
      = shapeCast S16000000 (W (Proc.devRef .tc main_v106) : Vec Ideal S1x16000000 .f32) shapeCasts_S1x16000000_S16000000 := by
    after_results
    rfl
  rw [h]
  exact shapeCast_apply _ shapeCasts_S1x16000000_S16000000 (ix1 e) (ix2 (0 : Fin 1) e) (by
    rw [Shape.rowMajor_val_one, Shape.rowMajor_val_two]; show 0 * 16000000 + e.val = e.val; omega)

/-- The line after the region drops the output's unit axis: the result buffer holds `result`. -/
theorem tail_eq (c : Dev nD) :
    Pipeline.afterTail₀ cfgs (dats m) 0 (V0 m) [hostOps1] c main_v107 = result m c := by
  have hW : Pipeline.withArrays (cfgs 0).spec c (V0 m c) (fun w => (dats m 0 c).arrAt w (cfgs 0).N)
      (Proc.devRef .tc main_v106) = dots (arrA m c) (arrB m c) :=
    (Pipeline.withArrays_arr spec0 launch0.win.arr_inj c _ _ 2).trans (final m c)
  unfold Pipeline.afterTail₀
  funext i
  obtain ⟨e, rfl⟩ : ∃ e : Fin 16000000, i = ix1 e := ⟨i 0, eq_ix1 i⟩
  show (StableHlo.after hostOps1 _ (Proc.devRef .tc main_v107) : Vec Ideal S16000000 .f32) (ix1 e) = _
  rw [tail_core, hW]
  rfl

/-- The idealized kernel's run, read: the result buffer at `result`, the arguments unchanged. -/
theorem run : θ_run defs (onTc (τ := τ) (main (F := Ideal))) ⟨m, fun _ => 0, ρ⟩ fun r => ∀ c : Dev nD,
      r.2.mem ((c.tc : Thread nD τ).loc main_v107) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v107 (Pipeline.mem_restRefs_of main_v107 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.EdgeDot

end
-- ==== Proof.LibConcatPair.lean ====
/-
  A concatenate of TWO arrays with its shape condition stated on the two shapes alone.

  `concatenate t a xs h` takes the operands as a list of (shape, array) pairs and a proof `h` about the shapes of that
  list, so the proof's type mentions the whole list, arrays included, and a rewriting pass cannot touch an operand
  without retyping `h`. For two operands the condition only speaks of the two shapes; `concat2` takes it in that form,
  which leaves both arrays free to be rewritten, and `concatenate_pair` says the two are the same function
  (definitionally). Meant for evaluating a straight line of host operations in one simplification pass when a
  concatenate's operands are themselves computed by earlier operations of the line.
-/
import Idealize.ShloMosaic.PureOps.ShapeOps

noncomputable section

namespace Idealize.ShloMosaic

variable {α : Type}

/-- The concatenate of `x : s1` and `y : s2` along axis `a` of `t`, the shapes' condition free of the arrays. -/
def concat2 (t : Shape) (a : Fin t.rank) (s1 s2 : Shape) (x : s1.Idx → α) (y : s2.Idx → α)
    (h : Shape.Concatenates [s1, s2] t a) : t.Idx → α :=
  concatenate t a [⟨s1, x⟩, ⟨s2, y⟩] h

/-- A two-operand `concatenate` is `concat2` of its operands. -/
theorem concatenate_pair (t : Shape) (a : Fin t.rank) (s1 s2 : Shape) (x : s1.Idx → α) (y : s2.Idx → α)
    (h : Shape.Concatenates [s1, s2] t a) :
    concatenate t a [⟨s1, x⟩, ⟨s2, y⟩] h = concat2 t a s1 s2 x y h := rfl

end Idealize.ShloMosaic

end
-- ==== Proof.HostPrefix.lean ====
/-
  The two arrays the region reads, as functions of the program's arguments.

  Up to the node embedding `h : [1000000, 4]` (two normalized graph convolutions of `x` over the edge list with self
  loops, a relu between them) the kernel program's host lines are, operation for operation, the reference's. The kernel
  program then transposes `h` and takes its columns at the source, resp. destination, node of every edge (a negative node
  index first wrapped by adding the node count, as `x[idx]` does), where the reference takes rows of `h` itself. So with
  `h` and the two wrapped index columns named by the reference's own stage functions, the region's inputs are

      a = gather-columns (transpose h) src,   b = gather-columns (transpose h) dst.

  Each equation is the host prefix evaluated at the buffer in one simplification pass (every operation's result at its own
  buffer is its function's value, at any other buffer what was there; a two-operand concatenate first put in the form
  whose operands the pass may rewrite, an inlined callee's typed references read as the buffers they are) and compared with the stage functions unfolded.
-/
import proofs.«152701_j38147899523171_1_alg».proof.Proof.Gen.KernelIdeal.Frame
import proofs.«152701_j38147899523171_1_alg».proof.Proof.ReferenceReadP
import proofs.«152701_j38147899523171_1_alg».proof.Proof.LibConcatPair
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostPrefix

open Cert.KernelIdeal Cert.KernelIdeal.Gen

variable (m : (ℓ : Loc nD τ sig) → Buf (Elt Ideal) ℓ)

/-- The node embedding after the two graph convolutions, of the program's six arguments. -/
abbrev nodeEmb (c : Dev nD) : Vec Ideal S1000000x4 .f32 :=
  Cert.ReferenceIdeal.ReadP.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- Every edge's source node as a column `[E, 1]`, a negative index wrapped by the node count. -/
abbrev srcIdx (c : Dev nD) : IVec S16000000x1 32 :=
  Cert.ReferenceIdeal.ReadP.val_main_v96 (F := Ideal) (m ((c.tc : Thread nD τ).loc main_arg1))

/-- Every edge's destination node, likewise. -/
abbrev dstIdx (c : Dev nD) : IVec S16000000x1 32 :=
  Cert.ReferenceIdeal.ReadP.val_main_v103 (F := Ideal) (m ((c.tc : Thread nD τ).loc main_arg1))

set_option maxRecDepth 65536 in
set_option maxHeartbeats 16000000 in
/-- The region's first input: the transposed embedding's columns at the edges' source nodes. -/
theorem V_src (c : Dev nD) :
    V m c main_v98 = Host.gather gather_S4x1000000_S16000000x1_S4x16000000_0_1_n_n_1_1_41
      (transpose S4x1000000 [1, 0] (nodeEmb m c) transposes_S1000000x4_S4x1000000_1_0) (srcIdx m c) := by
  dsimp only [V, V0]
  simp only [hostOps0, hostOps0_1, hostOps0_2, hostOps0_3, hostOps0_4, hostOps0_5, hostOps0_6, List.flatten_cons,
    List.flatten_nil, List.append_nil, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair, TRef.ofBuf, TRef.toBuf, cast_eq]
  rfl

set_option maxRecDepth 65536 in
set_option maxHeartbeats 16000000 in
/-- The region's second input: the transposed embedding's columns at the edges' destination nodes. -/
theorem V_dst (c : Dev nD) :
    V m c main_v105 = Host.gather gather_S4x1000000_S16000000x1_S4x16000000_0_1_n_n_1_1_41
      (transpose S4x1000000 [1, 0] (nodeEmb m c) transposes_S1000000x4_S4x1000000_1_0) (dstIdx m c) := by
  dsimp only [V, V0]
  simp only [hostOps0, hostOps0_1, hostOps0_2, hostOps0_3, hostOps0_4, hostOps0_5, hostOps0_6, List.flatten_cons,
    List.flatten_nil, List.append_nil, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair, TRef.ofBuf, TRef.toBuf, cast_eq]
  rfl

end Cert.KernelIdeal.HostPrefix

end
-- ==== Proof.LibGatherAxis.lean ====
/-
  Two shapes of `stablehlo.gather` read at an index: taking ROWS of a table `[N, D]` at `E` start indices given as a column
  `[E, 1]` (what `x[idx]` of a matrix lowers to: offset axis 1, collapsed axis 0, the start index mapped to axis 0, slices
  `[1, D]`), and taking COLUMNS of a table `[D, N]` at the same kind of indices (what `x[:, idx]` lowers to: offset axis 0,
  collapsed axis 1, the start index mapped to axis 1, slices `[D, 1]`). In both the result element is the table's element
  whose coordinate on the indexed axis is the start index read as a signed integer and clamped into `[0, N - 1]`, and whose
  other coordinate is the result's own: StableHLO clamps every start index so that the slice fits, and on an axis the start
  index map does not name the slice starts at 0.
-/
import Idealize.ShloMosaic.Lib.ValueIdx

noncomputable section

namespace Idealize.ShloMosaic.GatherAxis

open Idealize.ShloMosaic Idealize.ShloMosaic.ValueIdx

variable {α : Type}

theorem one_not_mem_zero : (1 : Fin 2) ∉ [(0 : Fin 2)] := fun h => absurd (List.mem_singleton.mp h) (by decide)
theorem zero_not_mem_one : (0 : Fin 2) ∉ [(1 : Fin 2)] := fun h => absurd (List.mem_singleton.mp h) (by decide)

/-! ## Rows of a table -/

/-- The dimension numbers of `x[idx]` for a table `[N, D]`, start indices `[E, 1]` and a result `[E, D]`; their
    conditions `wf` are decided on a program's literal shapes. -/
abbrev takeRowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

section Rows
variable {N D E w : Nat} (wf : GatherDims.WF ⟨2, ![N, D]⟩ ⟨2, ![E, 1]⟩ ⟨2, ![E, D]⟩ [1] [0] [] [0] [] 1 ![1, D])
  (idx : IVec ⟨2, ![E, 1]⟩ w) (e : Fin E) (d : Fin D)

/-- On the indexed axis (collapsed, so without an offset): the start index's one component, clamped. -/
theorem takeRows_coord0 :
    (takeRowsDims N D E wf).start (ix2 e d) idx (0 : Fin 2) + (takeRowsDims N D E wf).batchCoord (ix2 e d) (0 : Fin 2)
      + (takeRowsDims N D E wf).offCoord (ix2 e d) (0 : Fin 2) = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (takeRowsDims N D E wf).startIndexMap from List.mem_singleton.mpr rfl)]
  have hsi : (takeRowsDims N D E wf).siIdx (ix2 e d) ⟨List.idxOf (0 : Fin 2) (takeRowsDims N D E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the kept axis (not in the start index map, so the slice starts at 0): the result's own column. -/
theorem takeRows_coord1 :
    (takeRowsDims N D E wf).start (ix2 e d) idx (1 : Fin 2) + (takeRowsDims N D E wf).batchCoord (ix2 e d) (1 : Fin 2)
      + (takeRowsDims N D E wf).offCoord (ix2 e d) (1 : Fin 2) = d.val := by
  have hstart : (takeRowsDims N D E wf).start (ix2 e d) idx (1 : Fin 2) = 0 := by
    unfold GatherDims.start
    rw [dif_neg (show (1 : Fin 2) ∉ (takeRowsDims N D E wf).startIndexMap from one_not_mem_zero)]
  have hoff : (takeRowsDims N D E wf).offCoord (ix2 e d) (1 : Fin 2) = d.val := by
    unfold GatherDims.offCoord
    rw [dif_pos ((GatherDims.mem_sKept _ _).mpr ⟨one_not_mem_zero, List.not_mem_nil⟩)]
    rfl
  rw [GatherDims.batchCoord_eq_zero _ _ _ List.not_mem_nil, hstart, hoff]
  omega

end Rows

/-- THE ROW GATHER READ AT `(e, d)`: the table at row `idx[e, 0]`, read signed and clamped into `[0, N − 1]`, column `d`. -/
theorem gather_takeRows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (takeRowsDims N D E wf) x idx (ix2 e d)
      = x (ix2 ⟨min (idx (ix2 e (0 : Fin 1))).toInt.toNat (N - 1), by omega⟩ d) := by
  unfold Host.gather
  congr 1
  funext a
  refine Fin.ext ?_
  match a with
  | ⟨0, _⟩ => exact takeRows_coord0 wf idx e d
  | ⟨1, _⟩ => exact takeRows_coord1 wf idx e d

/-! ## Columns of a table -/

/-- The dimension numbers of `x[:, idx]` for a table `[D, N]`, start indices `[E, 1]` and a result `[D, E]`. -/
abbrev takeColsDims (D N E : Nat)
    (wf : GatherDims.WF ⟨2, ![D, N]⟩ ⟨2, ![E, 1]⟩ ⟨2, ![D, E]⟩ [0] [1] [] [1] [] 1 ![D, 1]) :
    GatherDims ⟨2, ![D, N]⟩ ⟨2, ![E, 1]⟩ ⟨2, ![D, E]⟩ where
  offsetDims := [0]
  collapsedSliceDims := [1]
  operandBatchingDims := []
  startIndicesBatchingDims := []
  startIndexMap := [1]
  indexVectorDim := 1
  sliceSizes := ![D, 1]
  wf := wf

section Cols
variable {D N E w : Nat} (wf : GatherDims.WF ⟨2, ![D, N]⟩ ⟨2, ![E, 1]⟩ ⟨2, ![D, E]⟩ [0] [1] [] [1] [] 1 ![D, 1])
  (idx : IVec ⟨2, ![E, 1]⟩ w) (d : Fin D) (e : Fin E)

/-- On the kept axis (not in the start index map, so the slice starts at 0): the result's own row. -/
theorem takeCols_coord0 :
    (takeColsDims D N E wf).start (ix2 d e) idx (0 : Fin 2) + (takeColsDims D N E wf).batchCoord (ix2 d e) (0 : Fin 2)
      + (takeColsDims D N E wf).offCoord (ix2 d e) (0 : Fin 2) = d.val := by
  have hstart : (takeColsDims D N E wf).start (ix2 d e) idx (0 : Fin 2) = 0 := by
    unfold GatherDims.start
    rw [dif_neg (show (0 : Fin 2) ∉ (takeColsDims D N E wf).startIndexMap from zero_not_mem_one)]
  have hoff : (takeColsDims D N E wf).offCoord (ix2 d e) (0 : Fin 2) = d.val := by
    unfold GatherDims.offCoord
    rw [dif_pos ((GatherDims.mem_sKept _ _).mpr ⟨zero_not_mem_one, List.not_mem_nil⟩)]
    rfl
  rw [GatherDims.batchCoord_eq_zero _ _ _ List.not_mem_nil, hstart, hoff]
  omega

/-- On the indexed axis (collapsed, so without an offset): the start index's one component, clamped. -/
theorem takeCols_coord1 :
    (takeColsDims D N E wf).start (ix2 d e) idx (1 : Fin 2) + (takeColsDims D N E wf).batchCoord (ix2 d e) (1 : Fin 2)
      + (takeColsDims D N E wf).offCoord (ix2 d e) (1 : Fin 2) = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (takeColsDims D N E wf).startIndexMap from List.mem_singleton.mpr rfl)]
  have hsi : (takeColsDims D N E wf).siIdx (ix2 d e) ⟨List.idxOf (1 : Fin 2) (takeColsDims D N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cols

/-- THE COLUMN GATHER READ AT `(d, e)`: the table at row `d`, column `idx[e, 0]` read signed and clamped into `[0, N − 1]`. -/
theorem gather_takeCols_apply {D N E w : Nat} (hN : 0 < N)
    (wf : GatherDims.WF ⟨2, ![D, N]⟩ ⟨2, ![E, 1]⟩ ⟨2, ![D, E]⟩ [0] [1] [] [1] [] 1 ![D, 1])
    (x : (⟨2, ![D, N]⟩ : Shape).Idx → α) (idx : IVec ⟨2, ![E, 1]⟩ w) (d : Fin D) (e : Fin E) :
    Host.gather (takeColsDims D N E wf) x idx (ix2 d e)
      = x (ix2 d ⟨min (idx (ix2 e (0 : Fin 1))).toInt.toNat (N - 1), by omega⟩) := by
  unfold Host.gather
  congr 1
  funext a
  refine Fin.ext ?_
  match a with
  | ⟨0, _⟩ => exact takeCols_coord0 wf idx d e
  | ⟨1, _⟩ => exact takeCols_coord1 wf idx d e

end Idealize.ShloMosaic.GatherAxis

end
-- ==== Proof.Bridge.lean ====
/-
  The two idealized programs compute one function.

  Write `h : [1000000, 4]` for the node embedding and `s, d : [16000000, 1]` for the edges' source and destination nodes
  (negative indices wrapped), all three the same functions of the arguments in both programs. For an index column `I` and
  an edge `e` let `node I e` be `I[e, 0]` read as a signed integer and clamped into `[0, 999999]`: what a gather along
  the node axis reads, whichever way the table lies.

  * The reference takes rows: `h[s][e, k] = h[node s e, k]`, multiplies the two row gathers entry by entry and sums over
    `k < 4` from the initial value `0`.
  * The kernel program takes columns of the transpose: `(hᵀ)[:, s][k, e] = hᵀ[k, node s e] = h[node s e, k]`, and its
    region sums the four products of every column.

  So at every edge both results are `∑ k < 4, h[node s e, k] · h[node d e, k]`; the reference's extra initial value is the
  zero of the extended reals. No finiteness is used: the two sides are the same sum of the same products.
-/
import proofs.«152701_j38147899523171_1_alg».proof.Proof.KernelRun
import proofs.«152701_j38147899523171_1_alg».proof.Proof.HostPrefix
import proofs.«152701_j38147899523171_1_alg».proof.Proof.ReferenceReadP
import proofs.«152701_j38147899523171_1_alg».proof.Proof.LibGatherAxis
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx Idealize.ShloMosaic.GatherAxis
open scoped BigOperators

namespace Cert.Bridge

open Cert.KernelIdeal Cert.KernelIdeal.Gen

/-- The node a gather along the node axis reads for edge `e`: the index column's entry, signed, clamped into range. -/
def node (I : IVec S16000000x1 32) (e : Fin 16000000) : Fin 1000000 :=
  ⟨min (I (ix2 e (0 : Fin 1))).toInt.toNat (1000000 - 1), by omega⟩

/-- The reference's row gather at `(e, k)` is the table at `(node I e, k)`. -/
theorem ref_row (H : Vec Ideal S1000000x4 .f32) (I : IVec S16000000x1 32) (e : Fin 16000000) (k : Fin 4) :
    Host.gather Cert.ReferenceIdeal.gather_S1000000x4_S16000000x1_S16000000x4_1_0_n_n_0_1_14 H I (ix2 e k) = H (ix2 (node I e) k) :=
  gather_takeRows_apply (by decide) Cert.ReferenceIdeal.Facts₀.gather_S1000000x4_S16000000x1_S16000000x4_1_0_n_n_0_1_14_wf H I e k

/-- The kernel program's column gather of the transposed table at `(k, e)` is the table at `(node I e, k)`. -/
theorem ker_col (H : Vec Ideal S1000000x4 .f32) (I : IVec S16000000x1 32) (k : Fin 4) (e : Fin 16000000) :
    Host.gather gather_S4x1000000_S16000000x1_S4x16000000_0_1_n_n_1_1_41 (transpose S4x1000000 [1, 0] H Facts₀.transposes_S1000000x4_S4x1000000_1_0) I (ix2 k e)
      = H (ix2 (node I e) k) :=
  (gather_takeCols_apply (by decide) Facts₀.gather_S4x1000000_S16000000x1_S4x16000000_0_1_n_n_1_1_41_wf _ I k e).trans
    (transpose_ix2_apply H _ k (node I e))

/-- The reference's initial value is the zero of the extended reals. -/
theorem init_zero (j : Cert.ReferenceIdeal.S_.Idx) : Cert.ReferenceIdeal.ReadP.val_main_cst_24 (F := Ideal) j = 0 :=
  Ideal.ofBits_zero_f32

/-- THE LAW, for any table `H` and index columns `S, D`: at edge `e` the sum over the four features of the products of the
    two ROW gathers of `H` is the four-term sum of the two COLUMN gathers of `H` transposed; both read `H` at
    `(node S e, k)` and `(node D e, k)`. -/
theorem score_core (H : Vec Ideal S1000000x4 .f32) (S D : IVec S16000000x1 32) (e : Fin 16000000) :
    ∑ k : Fin 4, mulf (F := Ideal) (φ := .f32) (Host.gather Cert.ReferenceIdeal.gather_S1000000x4_S16000000x1_S16000000x4_1_0_n_n_0_1_14 H S) (Host.gather Cert.ReferenceIdeal.gather_S1000000x4_S16000000x1_S16000000x4_1_0_n_n_0_1_14 H D) (ix2 e k)
      = Cert.KernelIdeal.EdgeDot.dot4
          (Host.gather gather_S4x1000000_S16000000x1_S4x16000000_0_1_n_n_1_1_41 (transpose S4x1000000 [1, 0] H Facts₀.transposes_S1000000x4_S4x1000000_1_0) S)
          (Host.gather gather_S4x1000000_S16000000x1_S4x16000000_0_1_n_n_1_1_41 (transpose S4x1000000 [1, 0] H Facts₀.transposes_S1000000x4_S4x1000000_1_0) D) e := by
  unfold Cert.KernelIdeal.EdgeDot.dot4
  refine Finset.sum_congr rfl fun k _ => ?_
  rw [mulf_apply, ref_row, ref_row, ker_col, ker_col]

variable (m : (ℓ : Loc nD τ sig) → Buf (Elt Ideal) ℓ)

/-- The region's first input array is the transposed embedding's columns at the source nodes. -/
theorem arrA_eq (c : Dev nD) :
    Cert.KernelIdeal.EdgeDot.arrA m c = Host.gather gather_S4x1000000_S16000000x1_S4x16000000_0_1_n_n_1_1_41
      (transpose S4x1000000 [1, 0] (Cert.KernelIdeal.HostPrefix.nodeEmb m c) Facts₀.transposes_S1000000x4_S4x1000000_1_0)
      (Cert.KernelIdeal.HostPrefix.srcIdx m c) :=
  Cert.KernelIdeal.HostPrefix.V_src m c

/-- The second is its columns at the destination nodes. -/
theorem arrB_eq (c : Dev nD) :
    Cert.KernelIdeal.EdgeDot.arrB m c = Host.gather gather_S4x1000000_S16000000x1_S4x16000000_0_1_n_n_1_1_41
      (transpose S4x1000000 [1, 0] (Cert.KernelIdeal.HostPrefix.nodeEmb m c) Facts₀.transposes_S1000000x4_S4x1000000_1_0)
      (Cert.KernelIdeal.HostPrefix.dstIdx m c) :=
  Cert.KernelIdeal.HostPrefix.V_dst m c

/-- The kernel program's result at edge `e` is the four-term sum over its two input arrays. -/
theorem result_apply (c : Dev nD) (e : Fin 16000000) :
    Cert.KernelIdeal.EdgeDot.result m c (ix1 e)
      = Cert.KernelIdeal.EdgeDot.dot4 (Cert.KernelIdeal.EdgeDot.arrA m c) (Cert.KernelIdeal.EdgeDot.arrB m c) e := rfl

/-- The reference's product stage is the entrywise product of its two row gathers of the embedding. -/
theorem ref_prod (c : Dev nD) :
    Cert.ReferenceIdeal.ReadP.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      = mulf (F := Ideal) (φ := .f32) (Host.gather Cert.ReferenceIdeal.gather_S1000000x4_S16000000x1_S16000000x4_1_0_n_n_0_1_14 (Cert.KernelIdeal.HostPrefix.nodeEmb m c) (Cert.KernelIdeal.HostPrefix.srcIdx m c))
          (Host.gather Cert.ReferenceIdeal.gather_S1000000x4_S16000000x1_S16000000x4_1_0_n_n_0_1_14 (Cert.KernelIdeal.HostPrefix.nodeEmb m c) (Cert.KernelIdeal.HostPrefix.dstIdx m c)) := rfl

/-- THE TWO RESULTS AGREE: the reference's last stage, at the kernel program's arguments, is the kernel program's result. -/
theorem ref_eq_kernel (c : Dev nD) :
    Cert.ReferenceIdeal.ReadP.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      = Cert.KernelIdeal.EdgeDot.result m c := by
  funext i
  obtain ⟨e, rfl⟩ : ∃ e : Fin 16000000, i = ix1 e := ⟨i 0, eq_ix1 i⟩
  rw [Cert.ReferenceIdeal.ReadP.val_main_v106_apply, init_zero, zero_add, result_apply, arrA_eq, arrB_eq,
    ← score_core, ref_prod]
  refine Finset.sum_congr rfl fun k _ => ?_
  have hidx : Cert.ReferenceIdeal.ReadP.idx_main_v106 (ix1 e) k = ix2 e k :=
    funext fun a => by match a with | ⟨0, _⟩ => rfl | ⟨1, _⟩ => rfl
  rw [hidx]

end Cert.Bridge

end
-- ==== Proof.lean ====
/-
  The certificate's claims.

  Both programs compute a two-layer graph convolution `h` of `x` over the edge list and then score every edge by the dot
  product of its endpoints' embeddings. They differ only in that last step: the reference gathers rows of `h`, multiplies
  and sums on the host; the kernel program gathers columns of the transpose and sums the four products of every column in
  a pipelined region over 100 blocks of 160000 edges. Over the extended reals both are `∑ k < 4, h[s e, k] · h[d e, k]`
  at every edge `e` (Proof/Bridge.lean), the same sum of the same products, so the precondition is never opened.

  The two kernel frames are the generated frame runs; the reference's frame is its run with the result dropped; the
  idealization rewrote nothing, so `preserves` is `True`.
-/
import proofs.«152701_j38147899523171_1_alg».proof.Defs
import proofs.«152701_j38147899523171_1_alg».proof.Proof.Gen.Kernel
import proofs.«152701_j38147899523171_1_alg».proof.Proof.Gen.Kernel.Skeleton
import proofs.«152701_j38147899523171_1_alg».proof.Proof.Gen.Kernel.Launch
import proofs.«152701_j38147899523171_1_alg».proof.Proof.Gen.Kernel.Points
import proofs.«152701_j38147899523171_1_alg».proof.Proof.Gen.Kernel.Frame
import proofs.«152701_j38147899523171_1_alg».proof.Proof.Gen.KernelIdeal
import proofs.«152701_j38147899523171_1_alg».proof.Proof.Gen.KernelIdeal.Skeleton
import proofs.«152701_j38147899523171_1_alg».proof.Proof.Gen.KernelIdeal.Launch
import proofs.«152701_j38147899523171_1_alg».proof.Proof.Gen.KernelIdeal.Points
import proofs.«152701_j38147899523171_1_alg».proof.Proof.Gen.KernelIdeal.Frame
import proofs.«152701_j38147899523171_1_alg».proof.Proof.Gen.ReferenceIdeal
import proofs.«152701_j38147899523171_1_alg».proof.Proof.Gen.Pre_finite_inputs
import proofs.«152701_j38147899523171_1_alg».proof.Proof.ReferenceRunP
import proofs.«152701_j38147899523171_1_alg».proof.Proof.ReferenceReadP
import proofs.«152701_j38147899523171_1_alg».proof.Proof.KernelRun
import proofs.«152701_j38147899523171_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both idealized programs end with the per-edge sums of products of the
    endpoints' embeddings: the kernel program's run read back, the reference's run read back, and the two terms one
    function of the arguments. -/
theorem algebraic : Cert.algebraic_KernelIdeal_ReferenceIdeal := by
  intro m ρ m' ρ' _ hagree
  refine ⟨fun c => Cert.KernelIdeal.EdgeDot.result m c, Cert.KernelIdeal.EdgeDot.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.ReadP.val_main_v106_eq, h0, h1, h2, h3, h4, h5]
  exact Cert.Bridge.ref_eq_kernel m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
